-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S26x8192x8 : Shape := ⟨3, ![26, 8192, 8]⟩
abbrev S26x8192 : Shape := ⟨2, ![26, 8192]⟩
abbrev S8192x128 : Shape := ⟨2, ![8192, 128]⟩
abbrev S26x1000x128 : Shape := ⟨3, ![26, 1000, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S26x1000x128 : S_.BroadcastsInDim S26x1000x128 (![] : Fin 0 → Fin S26x1000x128.rank)
  reducesTo_S26x1000x128_S_d0_1_2 : S26x1000x128.ReducesTo [0, 1, 2] S_
  bcast_S_S26x8192x8 : S_.BroadcastsInDim S26x8192x8 (![] : Fin 0 → Fin S26x8192x8.rank)
  reducesTo_S26x8192x8_S_d0_1_2 : S26x8192x8.ReducesTo [0, 1, 2] S_

variable [Facts]

def fn {F : FTy → Type} [FloatOps F] (main_arg0 : IVec S26x8192x8 32) (main_arg1 : IVec S26x8192 32) (main_arg2 : FVec F S8192x128 .f32) (main_arg3 : FVec F S26x1000x128 .f32) : IVec S_ 1 :=
  let main_v0 : FVec F S8192x128 .f32 := Host.absf main_arg2
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S26x1000x128 .f32 := Host.absf main_arg3
  let main_cst_0 : FVec F S_ .f32 := constant S_ .f32 0x7F800000#32
  let main_v5 : FVec F S26x1000x128 .f32 := broadcastInDim S26x1000x128 ![] bcast_S_S26x1000x128 main_cst_0
  let main_v6 : IVec S26x1000x128 1 := cmpf .olt main_v4 main_v5
  let main_c_1 : IVec S_ 1 := constantI S_ 1 1#1
  let main_v7 : IVec S_ 1 := (fun x v => Host.reduce IntOp.andi x v reducesTo_S26x1000x128_S_d0_1_2 h_S_) main_v6 main_c_1
  let main_v8 : IVec S_ 1 := andi main_v3 main_v7
  let main_c_2 : IVec S_ 32 := constantI S_ 32 0#32
  let main_v9 : IVec S26x8192x8 32 := broadcastInDim S26x8192x8 ![] bcast_S_S26x8192x8 main_c_2
  let main_v10 : IVec S26x8192x8 1 := cmpi .sge main_arg0 main_v9
  let main_c_3 : IVec S_ 32 := constantI S_ 32 1000#32
  let main_v11 : IVec S26x8192x8 32 := broadcastInDim S26x8192x8 ![] bcast_S_S26x8192x8 main_c_3
  let main_v12 : IVec S26x8192x8 1 := cmpi .slt main_arg0 main_v11
  let main_v13 : IVec S26x8192x8 1 := andi main_v10 main_v12
  let main_c_4 : IVec S_ 1 := constantI S_ 1 1#1
  let main_v14 : IVec S_ 1 := (fun x v => Host.reduce IntOp.andi x v reducesTo_S26x8192x8_S_d0_1_2 h_S_) main_v13 main_c_4
  let main_v15 : IVec S_ 1 := andi main_v8 main_v14
  main_v15
-- ==== Kernel.lean ====
abbrev S26x8192x8 : Shape := ⟨3, ![26, 8192, 8]⟩
abbrev S26x8192 : Shape := ⟨2, ![26, 8192]⟩
abbrev S8192x128 : Shape := ⟨2, ![8192, 128]⟩
abbrev S26x1000x128 : Shape := ⟨3, ![26, 1000, 128]⟩
abbrev S8192x3328 : Shape := ⟨2, ![8192, 3328]⟩
abbrev S1x2048x8 : Shape := ⟨3, ![1, 2048, 8]⟩
abbrev S1x1000x128 : Shape := ⟨3, ![1, 1000, 128]⟩
abbrev S2048x128 : Shape := ⟨2, ![2048, 128]⟩
abbrev S2048x8 : Shape := ⟨2, ![2048, 8]⟩
abbrev S1000x128 : Shape := ⟨2, ![1000, 128]⟩
abbrev S2048x1000 : Shape := ⟨2, ![2048, 1000]⟩
abbrev S2048x1 : Shape := ⟨2, ![2048, 1]⟩
abbrev S8192x3456 : Shape := ⟨2, ![8192, 3456]⟩

abbrev nBuf : Space → Nat
  | .hbm => 6
  | .vmem => 6
  | .smem => 0
  | _ => 0

abbrev bufTy : (tb : Table) → Fin (tcTables nBuf tb) → BufTy
  | .hbm, ⟨0, _⟩ => ⟨S26x8192x8, .i32⟩
  | .hbm, ⟨1, _⟩ => ⟨S26x8192, .i32⟩
  | .hbm, ⟨2, _⟩ => ⟨S8192x128, .f32⟩
  | .hbm, ⟨3, _⟩ => ⟨S26x1000x128, .f32⟩
  | .hbm, ⟨4, _⟩ => ⟨S8192x3328, .f32⟩
  | .hbm, ⟨5, _⟩ => ⟨S8192x3456, .f32⟩
  | .local _ .vmem, ⟨0, _⟩ => ⟨S1x2048x8, .i32⟩
  | .local _ .vmem, ⟨1, _⟩ => ⟨S1x2048x8, .i32⟩
  | .local _ .vmem, ⟨2, _⟩ => ⟨S1x1000x128, .f32⟩
  | .local _ .vmem, ⟨3, _⟩ => ⟨S1x1000x128, .f32⟩
  | .local _ .vmem, ⟨4, _⟩ => ⟨S2048x128, .f32⟩
  | .local _ .vmem, ⟨5, _⟩ => ⟨S2048x128, .f32⟩
  | _, _ => ⟨S26x8192x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![26, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x8_S1x2048x8_0_0_0 : ∀ a, (![0, 0, 0] : Fin 3 → Nat) a + S1x2048x8.size a ≤ S1x2048x8.size a
  h_S1x2048x8 : 0 < S1x2048x8.numel
  shapeCasts_S1x2048x8_S2048x8 : S1x2048x8.ShapeCasts S2048x8
  inb_S1x1000x128_S1x1000x128_0_0_0 : ∀ a, (![0, 0, 0] : Fin 3 → Nat) a + S1x1000x128.size a ≤ S1x1000x128.size a
  h_S1x1000x128 : 0 < S1x1000x128.numel
  shapeCasts_S1x1000x128_S1000x128 : S1x1000x128.ShapeCasts S1000x128
  bitsLt_bf16_f32 : FTy.bits .bf16 < FTy.bits .f32
  iota_S2048x1000_d1_w32 : S2048x1000.Iotas .tc 32 [1]
  slices_S2048x8_o0_0_S2048x1 : S2048x8.Slices ![0, 0] S2048x1
  broadcasts_S2048x1_S2048x1000 : S2048x1.Broadcasts S2048x1000
  natLt_1_32 : 1 < 32
  slices_S2048x8_o0_1_S2048x1 : S2048x8.Slices ![0, 1] S2048x1
  slices_S2048x8_o0_2_S2048x1 : S2048x8.Slices ![0, 2] S2048x1
  slices_S2048x8_o0_3_S2048x1 : S2048x8.Slices ![0, 3] S2048x1
  slices_S2048x8_o0_4_S2048x1 : S2048x8.Slices ![0, 4] S2048x1
  slices_S2048x8_o0_5_S2048x1 : S2048x8.Slices ![0, 5] S2048x1
  slices_S2048x8_o0_6_S2048x1 : S2048x8.Slices ![0, 6] S2048x1
  slices_S2048x8_o0_7_S2048x1 : S2048x8.Slices ![0, 7] S2048x1
  inb_S2048x128_S2048x128_0_0 : ∀ a, (![0, 0] : Fin 2 → Nat) a + S2048x128.size a ≤ S2048x128.size a
  h_S2048x128 : 0 < S2048x128.numel
  concatenates_S8192x128_S8192x3328_S8192x3456_d1 : Shape.Concatenates [S8192x128, S8192x3328] S8192x3456 1
  dot_S2048x1000_S1000x128_S2048x128_1_0_0_1_n_n_wf : DotDims.WF S2048x1000 S1000x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x8.size a ≤ S26x8192x8.size a
  hwx0_0 : ∀ i : grid0.Coords, EltTy.bits .i32 = 32 ∨ (Rect.block (s := S26x8192x8) S1x2048x8.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x128.size a ≤ S26x1000x128.size a
  hwx0_1 : ∀ i : grid0.Coords, EltTy.bits .f32 = 32 ∨ (Rect.block (s := S26x1000x128) S1x1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x3328.size a
  hwx0_2 : ∀ i : grid0.Coords, EltTy.bits .f32 = 32 ∨ (Rect.block (s := S8192x3328) S2048x128.size (cc0_transform_2 i) (hinb0_2 i)).WholeWords (EltTy.packing .f32)

variable [Facts₀]

def dot_S2048x1000_S1000x128_S2048x128_1_0_0_1_n_n : DotDims S2048x1000 S1000x128 S2048x128 where
  lhsContracting := [1]
  rhsContracting := [0]
  lhsNonContracting := [0]
  rhsNonContracting := [1]
  lhsBatch := []
  rhsBatch := []
  wf := dot_S2048x1000_S1000x128_S2048x128_1_0_0_1_n_n_wf

abbrev win0_0 : Pipeline.Window sig grid0 :=
  Pipeline.Window.ofSpec (Memref.whole main_arg0) S1x2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S26x8192x8 : Shape := ⟨3, ![26, 8192, 8]⟩
abbrev S26x8192 : Shape := ⟨2, ![26, 8192]⟩
abbrev S8192x128 : Shape := ⟨2, ![8192, 128]⟩
abbrev S26x1000x128 : Shape := ⟨3, ![26, 1000, 128]⟩
abbrev S_ : Shape := ⟨0, ![]⟩
abbrev S26x8192x8x1 : Shape := ⟨4, ![26, 8192, 8, 1]⟩
abbrev S26x8192x8x128 : Shape := ⟨4, ![26, 8192, 8, 128]⟩
abbrev S26x8192x128 : Shape := ⟨3, ![26, 8192, 128]⟩
abbrev S8192x26x128 : Shape := ⟨3, ![8192, 26, 128]⟩
abbrev S8192x3328 : Shape := ⟨2, ![8192, 3328]⟩
abbrev S8192x3456 : Shape := ⟨2, ![8192, 3456]⟩

abbrev nBuf : Space → Nat
  | .hbm => 18
  | .vmem => 0
  | .smem => 0
  | _ => 0

abbrev bufTy : (tb : Table) → Fin (tcTables nBuf tb) → BufTy
  | .hbm, ⟨0, _⟩ => ⟨S26x8192x8, .i32⟩
  | .hbm, ⟨1, _⟩ => ⟨S26x8192, .i32⟩
  | .hbm, ⟨2, _⟩ => ⟨S8192x128, .f32⟩
  | .hbm, ⟨3, _⟩ => ⟨S26x1000x128, .f32⟩
  | .hbm, ⟨4, _⟩ => ⟨S_, .i32⟩
  | .hbm, ⟨5, _⟩ => ⟨S26x8192x8, .i32⟩
  | .hbm, ⟨6, _⟩ => ⟨S26x8192x8, .i1⟩
  | .hbm, ⟨7, _⟩ => ⟨S_, .i32⟩
  | .hbm, ⟨8, _⟩ => ⟨S26x8192x8, .i32⟩
  | .hbm, ⟨9, _⟩ => ⟨S26x8192x8, .i32⟩
  | .hbm, ⟨10, _⟩ => ⟨S26x8192x8, .i32⟩
  | .hbm, ⟨11, _⟩ => ⟨S26x8192x8x1, .i32⟩
  | .hbm, ⟨12, _⟩ => ⟨S26x8192x8x128, .f32⟩
  | .hbm, ⟨13, _⟩ => ⟨S_, .f32⟩
  | .hbm, ⟨14, _⟩ => ⟨S26x8192x128, .f32⟩
  | .hbm, ⟨15, _⟩ => ⟨S8192x26x128, .f32⟩
  | .hbm, ⟨16, _⟩ => ⟨S8192x3328, .f32⟩
  | .hbm, ⟨17, _⟩ => ⟨S8192x3456, .f32⟩
  | _, _ => ⟨S26x8192x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S26x8192x8 : S_.BroadcastsInDim S26x8192x8 (![] : Fin 0 → Fin S26x8192x8.rank)
  bcast_S26x8192x8_S26x8192x8x1_0_1_2 : S26x8192x8.BroadcastsInDim S26x8192x8x1 (![0, 1, 2] : Fin 3 → Fin S26x8192x8x1.rank)
  reducesTo_S26x8192x8x128_S26x8192x128_d2 : S26x8192x8x128.ReducesTo [2] S26x8192x128
  h_S_ : 0 < S_.numel
  transposes_S26x8192x128_S8192x26x128_1_0_2 : S26x8192x128.Transposes [1, 0, 2] S8192x26x128
  shapeCasts_S8192x26x128_S8192x3328 : S8192x26x128.ShapeCasts S8192x3328
  concatenates_S8192x128_S8192x3328_S8192x3456_d1 : Shape.Concatenates [S8192x128, S8192x3328] S8192x3456 1
  gather_S26x1000x128_S26x8192x8x1_S26x8192x8x128_3_1_0_0_1_3_11128_wf : GatherDims.WF S26x1000x128 S26x8192x8x1 S26x8192x8x128 [3] [1] [0] [1] [0] 3 ![1, 1, 128]

variable [Facts₀]

def gather_S26x1000x128_S26x8192x8x1_S26x8192x8x128_3_1_0_0_1_3_11128 : GatherDims S26x1000x128 S26x8192x8x1 S26x8192x8x128 where
  offsetDims := [3]
  collapsedSliceDims := [1]
  operandBatchingDims := [0]
  startIndicesBatchingDims := [0]
  startIndexMap := [1]
  indexVectorDim := 3
  sliceSizes := ![1, 1, 128]
  wf := gather_S26x1000x128_S26x8192x8x1_S26x8192x8x128_3_1_0_0_1_3_11128_wf

class Facts : Prop extends Facts₀ where

variable [Facts]
-- ==== Proof.BagSum.lean ====
/-
  A bag of eight table rows, summed two ways, over the extended reals.

  One way gathers: for each of the bag's eight entries take the table row the entry names and add the eight rows.
  The other way counts: for every row number v of the table count how many of the bag's entries name v — each
  entry contributes the indicator "this entry's word is the word of v", a 1 or a 0 — and add count(v) times
  row v over all thousand rows.  When every entry names a row of the table (its word, read as a natural, is
  below 1000) the two are equal: a sum of nonnegative numbers distributes over a product on the extended reals
  (infinite rows included, so no finiteness of the table is used), the sum over v exchanges with the sum over
  the eight entries, and an indicator times a row, summed over v, picks the one row the entry names.

  Also here: what an entry in range looks like to the two programs.  Read as a signed word it is not negative,
  so the wrap of negative entries leaves it alone, and clamping it into [0, 999] leaves it alone too.
-/
import Idealize.ShloMosaic.PureOps.Ideal
import Idealize.ShloMosaic.Lib.ValueIdx
import Idealize.ShloMosaic.Lib.StableHlo.Predicate
import Mathlib.Data.EReal.Operations

noncomputable section

open scoped BigOperators

namespace Cert.BagSum

open Idealize.ShloMosaic Idealize.ShloMosaic.ValueIdx

/-! ## One entry against one row number -/

/-- The indicator of "entry `w` names row `v`" as the counting program computes it: the one-bit comparison of the
    two words, widened to 32 bits, converted to a float. -/
def hot (w : BitVec 32) (v : Nat) : EReal :=
  FloatOps.sitofp (F := Ideal) .f32 ((IntOp.cmpi .eq w (BitVec.ofNat 32 v)).setWidth 32)

/-- It is 1 where the words agree and 0 elsewhere. -/
theorem hot_eq (w : BitVec 32) (v : Nat) : hot w v = if w = BitVec.ofNat 32 v then 1 else 0 := by
  unfold hot
  by_cases h : w = BitVec.ofNat 32 v
  · rw [if_pos h, StableHlo.Predicate.cmpi_eq_iff.mpr h]
    show ((((1#1 : BitVec 1).setWidth 32).toInt : ℝ) : EReal) = 1
    have e : ((1#1 : BitVec 1).setWidth 32).toInt = 1 := by decide
    rw [e]; simp
  · rw [if_neg h, eq_zero_of_ne_one (fun hc => h (StableHlo.Predicate.cmpi_eq_iff.mp hc))]
    show ((((0#1 : BitVec 1).setWidth 32).toInt : ℝ) : EReal) = 0
    have e : ((0#1 : BitVec 1).setWidth 32).toInt = 0 := by decide
    rw [e]; simp

theorem hot_nonneg (w : BitVec 32) (v : Nat) : 0 ≤ hot w v := by
  rw [hot_eq]; split
  · exact zero_le_one
  · exact le_refl 0

/-- A word is the word of a small number exactly when it reads as that number. -/
theorem word_eq_iff (w : BitVec 32) (v : Nat) (hv : v < 2 ^ 32) : w = BitVec.ofNat 32 v ↔ w.toNat = v := by
  constructor
  · rintro rfl
    rw [BitVec.toNat_ofNat]; exact Nat.mod_eq_of_lt hv
  · intro h
    apply BitVec.eq_of_toNat_eq
    rw [BitVec.toNat_ofNat, h]; exact (Nat.mod_eq_of_lt hv).symm

/-- An indicator times a row, summed over the thousand rows, is the row the entry names. -/
theorem sum_hot_mul (x : Fin 1000 → EReal) (w : BitVec 32) (hw : w.toNat < 1000) :
    ∑ v : Fin 1000, hot w v.val * x v = x ⟨w.toNat, hw⟩ := by
  rw [Finset.sum_eq_single (⟨w.toNat, hw⟩ : Fin 1000)]
  · rw [hot_eq, if_pos ((word_eq_iff w _ (by omega)).mpr rfl), one_mul]
  · intro v _ hv
    rw [hot_eq, if_neg, zero_mul]
    intro h
    exact hv (Fin.ext ((word_eq_iff w _ (by have := v.isLt; omega)).mp h).symm)
  · intro h; exact absurd (Finset.mem_univ _) h

/-! ## The eight entries of a bag -/

/-- How many of the bag's entries name row `v`, accumulated from zero one entry at a time as the counting program does. -/
def count (w : Fin 8 → BitVec 32) (v : Nat) : EReal :=
  0 + hot (w 0) v + hot (w 1) v + hot (w 2) v + hot (w 3) v + hot (w 4) v + hot (w 5) v + hot (w 6) v + hot (w 7) v

/-- The count times a number is the eight indicators times it, added: every summand is nonnegative, and on the
    extended reals a sum of nonnegatives distributes over a product with anything. -/
theorem count_mul (w : Fin 8 → BitVec 32) (v : Nat) (c : EReal) :
    count w v * c = hot (w 0) v * c + hot (w 1) v * c + hot (w 2) v * c + hot (w 3) v * c + hot (w 4) v * c
      + hot (w 5) v * c + hot (w 6) v * c + hot (w 7) v * c := by
  unfold count
  have h := fun l => hot_nonneg (w l) v
  have h1 := add_nonneg (h 0) (h 1)
  have h2 := add_nonneg h1 (h 2)
  have h3 := add_nonneg h2 (h 3)
  have h4 := add_nonneg h3 (h 4)
  have h5 := add_nonneg h4 (h 5)
  have h6 := add_nonneg h5 (h 6)
  rw [zero_add, EReal.right_distrib_of_nonneg h6 (h 7), EReal.right_distrib_of_nonneg h5 (h 6),
    EReal.right_distrib_of_nonneg h4 (h 5), EReal.right_distrib_of_nonneg h3 (h 4),
    EReal.right_distrib_of_nonneg h2 (h 3), EReal.right_distrib_of_nonneg h1 (h 2),
    EReal.right_distrib_of_nonneg (h 0) (h 1)]

/-- COUNTING IS GATHERING: the counts times the rows, summed over the thousand rows, is the sum of the eight rows
    the bag's entries name, when every entry names a row. -/
theorem sum_count_mul (x : Fin 1000 → EReal) (w : Fin 8 → BitVec 32) (hw : ∀ l, (w l).toNat < 1000) :
    ∑ v : Fin 1000, count w v.val * x v = ∑ l : Fin 8, x ⟨(w l).toNat, hw l⟩ := by
  simp only [count_mul, Finset.sum_add_distrib, sum_hot_mul x _ (hw _), Fin.sum_univ_eight]

/-! ## An entry in range, as the gathering program meets it -/

/-- Read signed it is not negative, so the wrap of negative entries (add the table's length where the entry is
    below zero) leaves it alone. -/
theorem wrap_eq (w : BitVec 32) (hw : w.toNat < 1000) :
    Scalar.select (IntOp.cmpi .slt w 0#32) (IntOp.addi w 1000#32) w = w := by
  have h0 : ¬ IntOp.cmpi .slt w 0#32 = 1#1 := by
    rw [StableHlo.Predicate.slt_iff_toNat (by omega) (by decide)]
    exact Nat.not_lt_zero _
  rw [eq_zero_of_ne_one h0, select_zero]

/-- And clamped into the table's rows it is itself. -/
theorem clamp_eq (w : BitVec 32) (hw : w.toNat < 1000) : min w.toInt.toNat (1000 - 1) = w.toNat := by
  rw [StableHlo.Predicate.toInt_eq_toNat_of_lt (by omega), Int.toNat_natCast]
  omega

/-- A word that is at least zero and below a thousand as a signed comparison says reads, unsigned, below a thousand. -/
theorem toNat_lt_of_cmpi (w : BitVec 32) (h0 : IntOp.cmpi .sge w 0#32 = 1#1) (h1 : IntOp.cmpi .slt w 1000#32 = 1#1) :
    w.toNat < 1000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (1000#32 : BitVec 32).toInt = 1000 := by decide
  rw [e0] at h0
  rw [e1] at h1
  have hc := BitVec.toInt_eq_toNat_cond w
  have hlt := w.isLt
  split at hc <;> omega

end Cert.BagSum

end
-- ==== Proof.IndexRange.lean ====
/-
  What the precondition says of the bags' entries.

  The precondition is one bit: the conjunction of "every to_cat value is finite", "every table value is finite"
  and "every entry e of the index array has 0 ≤ e and e < 1000, compared as signed words".  When that bit is 1
  its last conjunct is 1, a conjunction over all entries that is 1 has a 1 at every entry, and a word that is at
  least 0 and below 1000 as a signed word reads below 1000 as a natural: every entry names a row of its table.
-/
import proofs.«421475_j53309134078326_1_alg».proof.Pre_finite_inputs
import proofs.«421475_j53309134078326_1_alg».proof.Proof.BagSum
import Idealize.ShloMosaic.Lib.ReduceAll

noncomputable section

namespace Cert.IndexRange

open Idealize.ShloMosaic Cert.Pre_finite_inputs

variable {F : FTy → Type} [FloatOps F] [Cert.Pre_finite_inputs.Facts]

/-- The scalar shape has one index. -/
instance : Subsingleton S_.Idx := ⟨fun a b => funext fun d => d.elim0⟩

/-- EVERY ENTRY NAMES A ROW: under the precondition each entry of the index array reads below 1000. -/
theorem entry_lt (a0 : IVec S26x8192x8 32) (a1 : IVec S26x8192 32) (a2 : FVec F S8192x128 .f32)
    (a3 : FVec F S26x1000x128 .f32) (h : fn (F := F) a0 a1 a2 a3 = fun _ => 1#1) (j : S26x8192x8.Idx) :
    (a0 j).toNat < 1000 := by
  have e := congrFun h ValueIdx.ix0
  dsimp only [fn] at e
  have e2 := (IntOp.andi_eq_one.1 e).2
  have e3 := Host.reduce_andi_all _ _ _ _ _ e2 j
  have e4 := IntOp.andi_eq_one.1 e3
  exact BagSum.toNat_lt_of_cmpi _ e4.1 e4.2

end Cert.IndexRange

end
-- ==== Proof.Pooled.lean ====
/-
  THE SPECIFICATION: the pooled array both programs compute, as one function of the index array and the tables.

  The result has 8192 rows (one per bag position b) and 26 · 128 columns; column c belongs to table c / 128 and
  lane c % 128.  Entry (b, c) is the sum, over the eight entries l of bag b of table t = c / 128, of the table's
  row named by that entry, at lane c % 128.  The row an entry names is its word read as a natural; so that the
  function is defined for every word it is reduced modulo the table's length, which changes nothing for an entry
  in range.
-/
import proofs.«421475_j53309134078326_1_alg».proof.Proof.BagSum

noncomputable section

open scoped BigOperators

namespace Cert.Pooled

open Idealize.ShloMosaic Idealize.ShloMosaic.ValueIdx

/-- The table a column of the pooled array belongs to, -/
def tabOf (i : (⟨2, ![8192, 3328]⟩ : Shape).Idx) : Fin 26 := ⟨(i 1).val / 128, by have := idx2_lt1 i; omega⟩
/-- its lane in that table's rows, -/
def laneOf (i : (⟨2, ![8192, 3328]⟩ : Shape).Idx) : Fin 128 := ⟨(i 1).val % 128, Nat.mod_lt _ (by decide)⟩
/-- and the bag position of a row. -/
def bagOf (i : (⟨2, ![8192, 3328]⟩ : Shape).Idx) : Fin 8192 := ⟨(i 0).val, idx2_lt0 i⟩

/-- The row a word names. -/
def rowOf (w : BitVec 32) : Fin 1000 := ⟨w.toNat % 1000, Nat.mod_lt _ (by decide)⟩

theorem rowOf_eq (w : BitVec 32) (hw : w.toNat < 1000) : rowOf w = ⟨w.toNat, hw⟩ :=
  Fin.ext (Nat.mod_eq_of_lt hw)

/-- The pooled array. -/
def pooled (idx : (⟨3, ![26, 8192, 8]⟩ : Shape).Idx → BitVec 32) (tbl : (⟨3, ![26, 1000, 128]⟩ : Shape).Idx → EReal) :
    (⟨2, ![8192, 3328]⟩ : Shape).Idx → EReal := fun i =>
  ∑ l : Fin 8, tbl (ix3 (tabOf i) (rowOf (idx (ix3 (tabOf i) (bagOf i) l))) (laneOf i))

/-- The same array as the counting program reaches it: for every row v of table t the number of bag b's entries that
    name v, times the row at the lane, summed over the thousand rows. -/
def counted (idx : (⟨3, ![26, 8192, 8]⟩ : Shape).Idx → BitVec 32) (tbl : (⟨3, ![26, 1000, 128]⟩ : Shape).Idx → EReal) :
    (⟨2, ![8192, 3328]⟩ : Shape).Idx → EReal := fun i =>
  ∑ v : Fin 1000, BagSum.count (fun l => idx (ix3 (tabOf i) (bagOf i) l)) v.val * tbl (ix3 (tabOf i) v (laneOf i))

/-- COUNTING IS GATHERING, array-wide: where every entry names a row of its table the counted array is the pooled one. -/
theorem counted_eq_pooled (idx : (⟨3, ![26, 8192, 8]⟩ : Shape).Idx → BitVec 32)
    (tbl : (⟨3, ![26, 1000, 128]⟩ : Shape).Idx → EReal) (h : ∀ j, (idx j).toNat < 1000) :
    counted idx tbl = pooled idx tbl := by
  funext i
  unfold counted pooled
  rw [BagSum.sum_count_mul (fun v => tbl (ix3 (tabOf i) v (laneOf i))) _ (fun l => h _)]
  refine Finset.sum_congr rfl fun l _ => ?_
  rw [rowOf_eq _ (h _)]

end Cert.Pooled

end
-- ==== Proof.RefRows.lean ====
/-
  The gathering program's pooled array is the specification.

  The program wraps negative entries (adds 1000 where an entry is below zero), gathers from each table the rows
  its entries name — the gather clamps a start index into the table —, sums the eight gathered rows of each bag
  from zero, swaps the table and bag axes and flattens (table, lane) into one column axis.  For an entry in range
  the wrap and the clamp do nothing, so the gathered row is the row the entry names; the flattening puts table t,
  lane d at column 128 t + d.
-/
import proofs.«421475_j53309134078326_1_alg».proof.Proof.Gen.ReferenceIdeal.Read
import proofs.«421475_j53309134078326_1_alg».proof.Proof.Pooled

noncomputable section

open scoped BigOperators

namespace Cert.RefRows

open Cert.ReferenceIdeal Cert.ReferenceIdeal.Gen Cert.ReferenceIdeal.Read
open Idealize.ShloMosaic Idealize.ShloMosaic.ValueIdx

/-- The gather's dimension numbers: table axis batched with the start indices' first axis, row axis collapsed and
    start-indexed, lane axis an offset axis. -/
abbrev G := gather_S26x1000x128_S26x8192x8x1_S26x8192x8x128_3_1_0_0_1_3_11128

/-! ## The gather read at an index, axis by axis of the table -/

variable {w : Nat} (idx : IVec S26x8192x8x1 w) (y : S26x8192x8x128.Idx)

/-- On the table axis: the result's table coordinate. -/
theorem operand_tab : (G.operandIdx y idx 0).val = (y 0).val := by
  show G.start y idx 0 + G.batchCoord y 0 + G.offCoord y 0 = _
  rw [G.start_batching y idx 0 (by decide), G.offCoord_eq_zero y 0 (by decide)]
  simp only [Nat.zero_add, Nat.add_zero]
  rfl

/-- On the lane axis: the result's lane coordinate. -/
theorem operand_lane : (G.operandIdx y idx 2).val = (y 3).val := by
  show G.start y idx 2 + G.batchCoord y 2 + G.offCoord y 2 = _
  rw [G.batchCoord_eq_zero y 2 (by decide)]
  have hs : G.start y idx 2 = 0 := by unfold GatherDims.start; rw [dif_neg (by decide)]
  rw [hs]
  simp only [Nat.zero_add, Nat.add_zero]
  rfl

/-- On the row axis: the start index at (table, bag, entry), read signed and clamped into the table's rows. -/
theorem operand_row : (G.operandIdx y idx 1).val
    = min (idx (ix4 ⟨(y 0).val, (y 0).isLt⟩ ⟨(y 1).val, (y 1).isLt⟩ ⟨(y 2).val, (y 2).isLt⟩ (0 : Fin 1))).toInt.toNat (1000 - 1) := by
  show G.start y idx 1 + G.batchCoord y 1 + G.offCoord y 1 = _
  rw [G.batchCoord_eq_zero y 1 (by decide), G.offCoord_eq_zero y 1 (by decide)]
  simp only [Nat.add_zero]
  unfold GatherDims.start
  rw [dif_pos (by decide)]
  have hsi : G.siIdx y ⟨List.idxOf (1 : Fin 3) G.startIndexMap, List.idxOf_lt_length_iff.2 (by decide)⟩
      = ix4 ⟨(y 0).val, (y 0).isLt⟩ ⟨(y 1).val, (y 1).isLt⟩ ⟨(y 2).val, (y 2).isLt⟩ (0 : Fin 1) := by
    funext b; refine Fin.ext ?_
    match b with
    | ⟨0, _⟩ => rfl
    | ⟨1, _⟩ => rfl
    | ⟨2, _⟩ => rfl
    | ⟨3, _⟩ => rfl
  rw [hsi]
  rfl

/-! ## One gathered element -/

/-- The start index the gather reads for (table, bag, entry) is the entry itself when the entry is in range: the
    wrap of negative entries leaves it alone. -/
theorem start_word (x0 : IVec S26x8192x8 32) (hx : ∀ j, (x0 j).toNat < 1000) (a : Fin 26) (b : Fin 8192) (l : Fin 8) :
    val_main_v5 (F := Ideal) x0 (ix4 a b l (0 : Fin 1)) = x0 (ix3 a b l) := by
  rw [val_main_v5_apply, val_main_v4_apply, val_main_v1_apply, val_main_v3_apply, val_main_v0_apply, val_main_v2_apply,
    val_main_c_apply, val_main_c_0_apply]
  have e : idx_main_v5 (ix4 a b l (0 : Fin 1)) = ix3 a b l := by
    funext d; match d with | ⟨0, _⟩ => rfl | ⟨1, _⟩ => rfl | ⟨2, _⟩ => rfl
  rw [e]
  exact BagSum.wrap_eq _ (hx _)

/-- THE GATHERED ELEMENT at (table t, bag b, entry l, lane d) is the table's row named by the entry, at lane d. -/
theorem gathered (x0 : IVec S26x8192x8 32) (x3 : FVec Ideal S26x1000x128 .f32) (hx : ∀ j, (x0 j).toNat < 1000)
    (y : S26x8192x8x128.Idx) :
    val_main_v6 (F := Ideal) x0 x3 y
      = x3 (ix3 ⟨(y 0).val, (y 0).isLt⟩ (Pooled.rowOf (x0 (ix3 ⟨(y 0).val, (y 0).isLt⟩ ⟨(y 1).val, (y 1).isLt⟩ ⟨(y 2).val, (y 2).isLt⟩)))
          ⟨(y 3).val, (y 3).isLt⟩) := by
  unfold val_main_v6
  show x3 (G.operandIdx y (val_main_v5 (F := Ideal) x0)) = _
  congr 1
  funext a; refine Fin.ext ?_
  match a with
  | ⟨0, _⟩ => exact operand_tab _ y
  | ⟨2, _⟩ => exact operand_lane _ y
  | ⟨1, _⟩ =>
    refine (operand_row _ y).trans ?_
    rw [start_word x0 hx, BagSum.clamp_eq _ (hx _), Pooled.rowOf_eq _ (hx _)]

/-! ## The pooled array -/

/-- THE REFERENCE'S POOLED ARRAY IS THE SPECIFICATION, when every entry is in range. -/
theorem pooled_eq (x0 : IVec S26x8192x8 32) (x3 : FVec Ideal S26x1000x128 .f32) (hx : ∀ j, (x0 j).toNat < 1000) :
    val_main_v9 (F := Ideal) x0 x3 = Pooled.pooled x0 x3 := by
  funext i
  rw [val_main_v9_apply, val_main_v8_apply, val_main_v7_apply, val_main_cst_apply]
  show Ideal.ofBits .f32 0x00000000#32 + _ = _
  rw [Ideal.ofBits_zero_f32, zero_add]
  unfold Pooled.pooled
  refine Finset.sum_congr rfl fun l _ => ?_
  rw [gathered x0 x3 hx]
  have h0 := idx2_lt0 i
  have h1 := idx2_lt1 i
  have et : (⟨(idx_main_v7 (idx_main_v8 (idx_main_v9 i)) l 0).val, (idx_main_v7 (idx_main_v8 (idx_main_v9 i)) l 0).isLt⟩ : Fin 26) = Pooled.tabOf i := by
    apply Fin.ext
    show ((i 0).val * 3328 + (i 1).val) / 128 % 26 = (i 1).val / 128
    omega
  have eb : (⟨(idx_main_v7 (idx_main_v8 (idx_main_v9 i)) l 1).val, (idx_main_v7 (idx_main_v8 (idx_main_v9 i)) l 1).isLt⟩ : Fin 8192) = Pooled.bagOf i := by
    apply Fin.ext
    show ((i 0).val * 3328 + (i 1).val) / 3328 = (i 0).val
    omega
  have el : (⟨(idx_main_v7 (idx_main_v8 (idx_main_v9 i)) l 2).val, (idx_main_v7 (idx_main_v8 (idx_main_v9 i)) l 2).isLt⟩ : Fin 8) = l := by
    apply Fin.ext; rfl
  have ed : (⟨(idx_main_v7 (idx_main_v8 (idx_main_v9 i)) l 3).val, (idx_main_v7 (idx_main_v8 (idx_main_v9 i)) l 3).isLt⟩ : Fin 128) = Pooled.laneOf i := by
    apply Fin.ext
    show ((i 0).val * 3328 + (i 1).val) % 128 = (i 1).val % 128
    omega
  rw [et, eb, el, ed]

end Cert.RefRows

end
-- ==== Proof.KernelBlock.lean ====
/-
  What the counting program's body writes at one element of its output block.

  At a grid point the body holds a [1, 2048, 8] block of entries (2048 bags of one table) and that table's
  [1, 1000, 128] rows.  For each of the eight entry columns l it compares the column, spread along 1000 lanes,
  with the lane number — an indicator matrix [2048, 1000] of "entry l of bag p names row v" —, adds the eight
  indicators from zero into a count matrix, and multiplies the counts into the table: element (p, q) of the
  [2048, 128] product is the sum over the 1000 rows v of count(p, v) times the table's row v at lane q.  The
  narrowings to the 16-bit format are the identity on exact values.
-/
import proofs.«421475_j53309134078326_1_alg».proof.Proof.Gen.KernelIdeal.Skeleton
import proofs.«421475_j53309134078326_1_alg».proof.Proof.BagSum
import Idealize.ShloMosaic.Lib.Pipeline.Value
import Idealize.ShloMosaic.PureOps.Ideal.Laws

set_option maxRecDepth 65536

noncomputable section

open scoped BigOperators

namespace Cert.KernelBlock

open Cert.KernelIdeal Cert.KernelIdeal.Gen
open Idealize.ShloMosaic Idealize.ShloMosaic.ValueIdx

/-- The matrix product's dimension numbers: [2048, 1000] × [1000, 128], the 1000 contracted. -/
abbrev D := dot_S2048x1000_S1000x128_S2048x128_1_0_0_1_n_n

/-- The lane numbers 0 … 999 along every row. -/
abbrev lanes : IVec S2048x1000 32 := iota .tc S2048x1000 32 [1] iota_S2048x1000_d1_w32

/-! ## One indicator matrix -/

variable (X : IVec S2048x8 32)

/-- Entry column `off` of the bags, spread along the 1000 lanes, reads the bag's entry everywhere on its row. -/
theorem entry_col (off : Nat) (hoff : off < 8) (h : S2048x8.Slices ![0, off] S2048x1) (p : Fin 2048) (v : Fin 1000) :
    broadcastTo S2048x1000 (extractStridedSlice S2048x1 ![0, off] X h) broadcasts_S2048x1_S2048x1000 (ix2 p v)
      = X (ix2 p ⟨off, hoff⟩) := by
  refine (broadcastTo_apply _ broadcasts_S2048x1_S2048x1000 (ix2 p v) (ix2 p (0 : Fin 1)) (fun a => by
    match a with
    | ⟨0, _⟩ => rfl
    | ⟨1, _⟩ => rfl)).trans ?_
  exact extractStridedSlice_apply _ X h _ (ix2 p ⟨off, hoff⟩) (fun a => by
    match a with
    | ⟨0, _⟩ => exact (Nat.zero_add _).symm
    | ⟨1, _⟩ => rfl)

/-- The indicator matrix of entry column `off`, as the body computes it. -/
def ind (off : Nat) (h : S2048x8.Slices ![0, off] S2048x1) : FVec Ideal S2048x1000 .bf16 :=
  truncf .bf16 (sitofp .f32 (extui 32 (cmpi .eq
    (broadcastTo S2048x1000 (extractStridedSlice S2048x1 ![0, off] X h) broadcasts_S2048x1_S2048x1000) lanes) natLt_1_32))
    bitsLt_bf16_f32

/-- At (bag p, row v) it is the indicator of "entry `off` of bag p names row v". -/
theorem ind_apply (off : Nat) (hoff : off < 8) (h : S2048x8.Slices ![0, off] S2048x1) (p : Fin 2048) (v : Fin 1000) :
    ind X off h (ix2 p v) = BagSum.hot (X (ix2 p ⟨off, hoff⟩)) v.val := by
  unfold ind BagSum.hot
  show FloatOps.sitofp (F := Ideal) .f32 ((IntOp.cmpi .eq
    (broadcastTo S2048x1000 (extractStridedSlice S2048x1 ![0, off] X h) broadcasts_S2048x1_S2048x1000 (ix2 p v))
    (lanes (ix2 p v))).setWidth 32) = _
  have hl : lanes (ix2 p v) = BitVec.ofNat 32 v.val :=
    iota_single_apply .tc S2048x1000 32 1 iota_S2048x1000_d1_w32 (ix2 p v)
  rw [entry_col X off hoff h p v, hl]

/-! ## The count matrix -/

/-- The sixteen-bit zero the count starts from is the number zero. -/
theorem zero_bf16 : Ideal.ofBits .bf16 0x0000#16 = 0 := by simp [Ideal.ofBits, Ideal.ieee]

/-- The eight indicator matrices added from zero, in the body's order. -/
def counts : FVec Ideal S2048x1000 .bf16 :=
  addf (addf (addf (addf (addf (addf (addf (addf (broadcast S2048x1000 (Scalar.ofBits .bf16 0x0000#16))
    (ind X 0 slices_S2048x8_o0_0_S2048x1)) (ind X 1 slices_S2048x8_o0_1_S2048x1)) (ind X 2 slices_S2048x8_o0_2_S2048x1))
    (ind X 3 slices_S2048x8_o0_3_S2048x1)) (ind X 4 slices_S2048x8_o0_4_S2048x1)) (ind X 5 slices_S2048x8_o0_5_S2048x1))
    (ind X 6 slices_S2048x8_o0_6_S2048x1)) (ind X 7 slices_S2048x8_o0_7_S2048x1)

/-- At (bag p, row v) it is the number of entries of bag p that name row v. -/
theorem counts_apply (p : Fin 2048) (v : Fin 1000) :
    counts X (ix2 p v) = BagSum.count (fun l => X (ix2 p l)) v.val := by
  unfold counts BagSum.count
  simp only [addf_apply]
  rw [ind_apply X 0 (by decide), ind_apply X 1 (by decide), ind_apply X 2 (by decide), ind_apply X 3 (by decide),
    ind_apply X 4 (by decide), ind_apply X 5 (by decide), ind_apply X 6 (by decide), ind_apply X 7 (by decide)]
  show Ideal.ofBits .bf16 0x0000#16 + _ + _ + _ + _ + _ + _ + _ + _ = _
  rw [zero_bf16]
  rfl

/-! ## The loaded blocks without their unit axis -/

/-- The entries block [1, 2048, 8] viewed [2048, 8]. -/
theorem bags_apply (x0 : Vec Ideal S1x2048x8 .i32) (p : Fin 2048) (l : Fin 8) :
    k0_pay2 (F := Ideal) x0 (ix2 p l) = x0 (ix3 (0 : Fin 1) p l) := by
  unfold k0_pay2
  refine (shapeCast_dropUnit_apply ![2048, 8] x0 shapeCasts_S1x2048x8_S2048x8 (ix2 p l)).trans (congrArg x0 ?_)
  funext a
  match a with
  | ⟨0, _⟩ => rfl
  | ⟨1, _⟩ => rfl
  | ⟨2, _⟩ => rfl

/-- The rows block [1, 1000, 128] viewed [1000, 128] (and narrowed, which changes no exact value). -/
theorem rows_apply (x1 : Vec Ideal S1x1000x128 .f32) (v : Fin 1000) (q : Fin 128) :
    k0_pay3 (F := Ideal) x1 (ix2 v q) = x1 (ix3 (0 : Fin 1) v q) := by
  unfold k0_pay3
  refine (shapeCast_dropUnit_apply ![1000, 128] x1 shapeCasts_S1x1000x128_S1000x128 (ix2 v q)).trans (congrArg x1 ?_)
  funext a
  match a with
  | ⟨0, _⟩ => rfl
  | ⟨1, _⟩ => rfl
  | ⟨2, _⟩ => rfl

/-! ## The product -/

theorem lhs_0 (j : S2048x128.Idx) (k : D.contr.Idx) : (D.lhsIdx j k 0 : ℕ) = j 0 := by
  simp [DotDims.lhsIdx, D, dot_S2048x1000_S1000x128_S2048x128_1_0_0_1_n_n]; rfl
theorem lhs_1 (j : S2048x128.Idx) (k : D.contr.Idx) : (D.lhsIdx j k 1 : ℕ) = k ⟨0, by decide⟩ := by
  simp [DotDims.lhsIdx, D, dot_S2048x1000_S1000x128_S2048x128_1_0_0_1_n_n]; rfl
theorem rhs_0 (j : S2048x128.Idx) (k : D.contr.Idx) : (D.rhsIdx j k 0 : ℕ) = k ⟨0, by decide⟩ := by
  simp [DotDims.rhsIdx, D, dot_S2048x1000_S1000x128_S2048x128_1_0_0_1_n_n]; rfl
theorem rhs_1 (j : S2048x128.Idx) (k : D.contr.Idx) : (D.rhsIdx j k 1 : ℕ) = j 1 := by
  simp [DotDims.rhsIdx, D, dot_S2048x1000_S1000x128_S2048x128_1_0_0_1_n_n]; rfl

/-- The body's stored value is the product of the count matrix with the rows, into zero. -/
theorem stored_eq (x0 : Vec Ideal S1x2048x8 .i32) (x1 : Vec Ideal S1x1000x128 .f32) :
    k0_pay1 (F := Ideal) (k0_pay2 x0) (k0_pay3 x1) lanes (k0_pay4 x0) (k0_pay5 x0)
      = matmul D none (counts (k0_pay2 (F := Ideal) x0)) (k0_pay3 (F := Ideal) x1) (constant S2048x128 .f32 0x00000000#32) := rfl

/-- ELEMENT (p, q) OF THE STORED BLOCK: the sum over the thousand rows v of the number of entries of bag p naming v
    times the table's row v at lane q. -/
theorem stored_apply (x0 : Vec Ideal S1x2048x8 .i32) (x1 : Vec Ideal S1x1000x128 .f32) (p : Fin 2048) (q : Fin 128) :
    k0_pay1 (F := Ideal) (k0_pay2 x0) (k0_pay3 x1) lanes (k0_pay4 x0) (k0_pay5 x0) (ix2 p q)
      = ∑ v : Fin 1000, BagSum.count (fun l => x0 (ix3 (0 : Fin 1) p l)) v.val * x1 (ix3 (0 : Fin 1) v q) := by
  rw [stored_eq]
  refine (Ideal.matmul_constant_zero_apply D none _ _ (ix2 p q)).trans ?_
  rw [← Equiv.sum_comp (contrEquiv1 D 1000 rfl rfl).symm]
  refine Finset.sum_congr rfl fun v _ => ?_
  have hl : D.lhsIdx (ix2 p q) ((contrEquiv1 D 1000 rfl rfl).symm v) = ix2 p v := by
    funext a; refine Fin.ext ?_
    match a with
    | ⟨0, _⟩ => exact lhs_0 _ _
    | ⟨1, _⟩ => exact (lhs_1 _ _).trans (contrEquiv1_symm_val D 1000 rfl rfl v)
  have hr : D.rhsIdx (ix2 p q) ((contrEquiv1 D 1000 rfl rfl).symm v) = ix2 v q := by
    funext a; refine Fin.ext ?_
    match a with
    | ⟨0, _⟩ => exact (rhs_0 _ _).trans (contrEquiv1_symm_val D 1000 rfl rfl v)
    | ⟨1, _⟩ => exact rhs_1 _ _
  rw [hl, hr, counts_apply, rows_apply]
  simp only [bags_apply]

/-- The same at any index of the block, by its two coordinates. -/
theorem stored_at (x0 : Vec Ideal S1x2048x8 .i32) (x1 : Vec Ideal S1x1000x128 .f32) (j : S2048x128.Idx) :
    k0_pay1 (F := Ideal) (k0_pay2 x0) (k0_pay3 x1) lanes (k0_pay4 x0) (k0_pay5 x0) j
      = ∑ v : Fin 1000, BagSum.count (fun l => x0 (ix3 (0 : Fin 1) (⟨(j 0).val, idx2_lt0 j⟩ : Fin 2048) l)) v.val
          * x1 (ix3 (0 : Fin 1) v (⟨(j 1).val, idx2_lt1 j⟩ : Fin 128)) := by
  obtain ⟨p, q, rfl⟩ : ∃ (p : Fin 2048) (q : Fin 128), j = ix2 p q := ⟨j 0, j 1, eq_ix2 j⟩
  exact stored_apply x0 x1 p q

end Cert.KernelBlock

end
-- ==== Proof.KernelArray.lean ====
/-
  From the body's blocks to the counting program's result.

  The grid has 26 × 4 points: point (t, s) reads the entries of table t for bags 2048 s … 2048 s + 2047 and table
  t's rows, and writes block (s, t) of the [8192, 26 · 128] pooled array, rows 2048 s …, columns 128 t ….  So what a
  point writes back is the restriction to its block of ONE function of the two argument arrays — the counted form of
  the pooled array (element (b, c): over the rows v of table c / 128, the number of bag b's entries naming v times
  the row at lane c % 128) —, the 104 blocks tile the array, and the array after the run is that function.  The
  program then joins to_cat and the pooled array along the columns.
-/
import proofs.«421475_j53309134078326_1_alg».proof.Proof.Gen.KernelIdeal.Frame
import proofs.«421475_j53309134078326_1_alg».proof.Proof.KernelBlock
import proofs.«421475_j53309134078326_1_alg».proof.Proof.Pooled
import Idealize.ShloMosaic.Lib.Pipeline.Value
import Idealize.ShloMosaic.Lib.StableHlo.Run

set_option maxRecDepth 16384

noncomputable section

open scoped BigOperators

namespace Cert.KernelArray

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The blocks a point reads and writes -/

theorem zero2 : (![0, 0] : Fin 2 → Nat) = fun _ => 0 := funext fun a => by fin_cases a <;> rfl
theorem zero3 : (![0, 0, 0] : Fin 3 → Nat) = fun _ => 0 := funext fun a => by fin_cases a <;> rfl

/-- The entries block and the rows block a point reads, at their literal types. -/
abbrev bagsBlk (c : Dev nD) (t : Fin cfg0.N) : Vec Ideal S1x2048x8 .i32 := iblk m c 0 t
abbrev rowsBlk (c : Dev nD) (t : Fin cfg0.N) : Vec Ideal S1x1000x128 .f32 := iblk m c 1 t

/-- The block numbers at a point, decided over the grid: the entries block is (table, bag tile, 0), the rows block
    (table, 0, 0), where the output block is (bag tile, table); four bag tiles, twenty-six tables. -/
theorem idx_facts : ∀ t : Fin cfg0.N,
    win0_0.index t (0 : Fin 3) = win0_2.index t (1 : Fin 2)
    ∧ win0_0.index t (1 : Fin 3) = win0_2.index t (0 : Fin 2)
    ∧ win0_0.index t (2 : Fin 3) = 0
    ∧ win0_1.index t (0 : Fin 3) = win0_2.index t (1 : Fin 2)
    ∧ win0_1.index t (1 : Fin 3) = 0
    ∧ win0_1.index t (2 : Fin 3) = 0
    ∧ win0_2.index t (0 : Fin 2) ≤ 3 ∧ win0_2.index t (1 : Fin 2) ≤ 25 :=
  (by decide +kernel : ∀ t : Fin grid0.N, _)

/-- Every (bag tile, table) pair is some point's output block. -/
theorem idx_onto : ∀ (q0 : Fin 4) (q1 : Fin 26), ∃ t : Fin cfg0.N, win0_2.index t = ![q0.val, q1.val] :=
  (by decide +kernel : ∀ (q0 : Fin 4) (q1 : Fin 26), ∃ t : Fin grid0.N, win0_2.index t = ![q0.val, q1.val])

/-- WHAT POINT `t` WRITES BACK is block `t` of the counted array of the argument arrays as the region finds them. -/
theorem flushed_eq (c : Dev nD) (t : Fin cfg0.N) :
    (dats m 0 c).flushed 2 t
      = ((cfg0.win 2).blk t).view.read (Elt Ideal) (Pooled.counted (V m c main_arg0) (V m c main_arg3)) := by
  show (cfg0.win 2).cut (grid0.coords t) ((dats m 0 c).after 2 t) = _
  rw [after0_2]
  unfold out0_2
  rw [View.canon_unit_zero zero2]
  simp only [View.ld_unit_zero (S := S1x2048x8) zero3, View.ld_unit_zero (S := S1x1000x128) zero3]
  obtain ⟨e0, e1, e2, e3, e4, e5, b0, b1⟩ := idx_facts t
  refine funext fun (j : S2048x128.Idx) => ?_
  refine (KernelBlock.stored_at (bagsBlk m c t) (rowsBlk m c t) j).trans ?_
  have hj0 : (j 0).val < 2048 := idx2_lt0 j
  have hj1 : (j 1).val < 128 := idx2_lt1 j
  show (∑ v : Fin 1000, BagSum.count (fun l => V m c main_arg0 (((cfg0.win 0).blk t).view.emb
          (ix3 (0 : Fin 1) (⟨(j 0).val, idx2_lt0 j⟩ : Fin 2048) l))) v.val
        * V m c main_arg3 (((cfg0.win 1).blk t).view.emb (ix3 (0 : Fin 1) v (⟨(j 1).val, idx2_lt1 j⟩ : Fin 128))))
      = Pooled.counted (V m c main_arg0) (V m c main_arg3) (((cfg0.win 2).blk t).view.emb j)
  unfold Pooled.counted
  refine Finset.sum_congr rfl fun v _ => ?_
  have hb : ∀ l : Fin 8, ((cfg0.win 0).blk t).view.emb (ix3 (0 : Fin 1) (⟨(j 0).val, idx2_lt0 j⟩ : Fin 2048) l)
      = ix3 (Pooled.tabOf (((cfg0.win 2).blk t).view.emb j)) (Pooled.bagOf (((cfg0.win 2).blk t).view.emb j)) l := by
    intro l
    funext a; apply Fin.ext
    match a with
    | ⟨0, _⟩ =>
      show win0_0.index t (0 : Fin 3) * 1 + 1 * 0 = (win0_2.index t (1 : Fin 2) * 128 + 1 * (j 1).val) / 128
      omega
    | ⟨1, _⟩ =>
      show win0_0.index t (1 : Fin 3) * 2048 + 1 * (j 0).val = win0_2.index t (0 : Fin 2) * 2048 + 1 * (j 0).val
      omega
    | ⟨2, _⟩ =>
      show win0_0.index t (2 : Fin 3) * 8 + 1 * l.val = l.val
      omega
  have hr : ((cfg0.win 1).blk t).view.emb (ix3 (0 : Fin 1) v (⟨(j 1).val, idx2_lt1 j⟩ : Fin 128))
      = ix3 (Pooled.tabOf (((cfg0.win 2).blk t).view.emb j)) v (Pooled.laneOf (((cfg0.win 2).blk t).view.emb j)) := by
    funext a; apply Fin.ext
    match a with
    | ⟨0, _⟩ =>
      show win0_1.index t (0 : Fin 3) * 1 + 1 * 0 = (win0_2.index t (1 : Fin 2) * 128 + 1 * (j 1).val) / 128
      omega
    | ⟨1, _⟩ =>
      show win0_1.index t (1 : Fin 3) * 1000 + 1 * v.val = v.val
      omega
    | ⟨2, _⟩ =>
      show win0_1.index t (2 : Fin 3) * 128 + 1 * (j 1).val = (win0_2.index t (1 : Fin 2) * 128 + 1 * (j 1).val) % 128
      omega
  simp only [hb, hr]

/-! ## The blocks tile the array -/

/-- An index of the pooled array is in point `t`'s block iff each coordinate is in the block's range on its axis. -/
theorem mem_blk (t : Fin cfg0.N) (i : S8192x3328.Idx) :
    i ∈ ((cfg0.win 2).blk t).view.set
      ↔ ∀ a : Fin 2, win0_2.index t a * S2048x128.size a ≤ (i a).val
          ∧ (i a).val < win0_2.index t a * S2048x128.size a + S2048x128.size a := by
  show i ∈ ((View.whole main_v0).slice (win0_2.rect t)).set ↔ _
  rw [View.set_slice_whole, Rect.mem_set_unit]
  exact Iff.rfl

/-- Every index is in the block of the point whose block numbers are (row / 2048, column / 128). -/
theorem covered (i : S8192x3328.Idx) :
    ∃ t : Fin cfg0.N, (cfg0.win 2).flush t = true ∧ i ∈ ((cfg0.win 2).blk t).view.set := by
  have hi0 : (i 0).val < 8192 := idx2_lt0 i
  have hi1 : (i 1).val < 3328 := idx2_lt1 i
  obtain ⟨t, ht⟩ := idx_onto ⟨(i 0).val / 2048, by omega⟩ ⟨(i 1).val / 128, by omega⟩
  have q0 : win0_2.index t (0 : Fin 2) = (i 0).val / 2048 := congrFun ht 0
  have q1 : win0_2.index t (1 : Fin 2) = (i 1).val / 128 := congrFun ht 1
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 128 ≤ (i 1).val ∧ (i 1).val < win0_2.index t (1 : Fin 2) * 128 + 128
    omega

/-- THE POOLED ARRAY AFTER THE RUN is the counted array of the arguments. -/
theorem pooled_array (c : Dev nD) :
    (dats m 0 c).arrAt 2 cfg0.N
      = Pooled.counted (m ((c : Thread nD τ).loc main_arg0)) (m ((c : Thread nD τ).loc main_arg3)) :=
  (dats m 0 c).arrAt_eq_of_cover 2 (Pooled.counted (V m c main_arg0) (V m c main_arg3))
    (fun t _ => flushed_eq m c t) covered

/-! ## The join after the region -/

/-- The two programs' last operation: to_cat and a pooled array side by side. -/
def joined (a : FVec Ideal S8192x128 .f32) (b : FVec Ideal S8192x3328 .f32) : FVec Ideal S8192x3456 .f32 :=
  concatenate S8192x3456 1 [⟨S8192x128, a⟩, ⟨S8192x3328, b⟩] concatenates_S8192x128_S8192x3328_S8192x3456_d1

/-- The result buffer after the line that follows the region: to_cat joined with the counted array. -/
theorem result_eq (c : Dev nD) :
    Pipeline.afterTail₀ cfgs (dats m) 0 (V0 m) [hostOps1] c main_v1
      = joined (m ((c : Thread nD τ).loc main_arg2))
          (Pooled.counted (m ((c : Thread nD τ).loc main_arg0)) (m ((c : Thread nD τ).loc main_arg3))) := by
  unfold Pipeline.afterTail₀
  show StableHlo.after hostOps1 _ (Proc.devRef .tc main_v1) = _
  after_results
  have e2 : Pipeline.withArrays (cfgs 0).spec c (V0 m c) (fun w => (dats m 0 c).arrAt w (cfgs 0).N)
      (Proc.devRef .tc main_arg2) = m ((c : Thread nD τ).loc main_arg2) :=
    (Pipeline.withArrays_of_ne _ c (V0 m c) _ main_arg2
      (by exact (by decide : ∀ w, Pipeline.arrRef spec0 w ≠ main_arg2))).trans (V_main_arg2 m c)
  have e0 : Pipeline.withArrays (cfgs 0).spec c (V0 m c) (fun w => (dats m 0 c).arrAt w (cfgs 0).N)
      (Proc.devRef .tc main_v0)
      = Pooled.counted (m ((c : Thread nD τ).loc main_arg0)) (m ((c : Thread nD τ).loc main_arg3)) :=
    (Pipeline.withArrays_arr spec0 launch0.win.arr_inj c _ _ 2).trans (pooled_array m c)
  rw [e2, e0]
  rfl

/-! ## The run, read -/

/-- THE COUNTING PROGRAM'S RUN: every weakly fair execution terminates with the result buffer at to_cat joined with
    the counted array of the arguments, and the arguments as launched (the generated frame run, its post read at the
    result buffer through the line after the region and at each argument array). -/
theorem run : θ_run defs (onTc (τ := τ) (main (F := Ideal))) ⟨m, fun _ => 0, ρ⟩ (fun r => ∀ c : Dev nD,
      r.2.mem ((c.tc : Thread nD τ).loc main_v1)
        = joined (m ((c.tc : Thread nD τ).loc main_arg2))
            (Pooled.counted (m ((c.tc : Thread nD τ).loc main_arg0)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_v1 (Pipeline.mem_restRefs_of main_v1 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).1 1).trans (((dats m 0 c).arrAt_in 1 rfl _).trans ((A_eq m c 1).trans (V_main_arg3 m c)))⟩)
    (run_main m ρ)

end Cert.KernelArray

end
-- ==== Proof.lean ====
/-
  The embedding-bag pooling kernel against its gathering reference, over the extended reals.

  Both programs take 26 tables of 1000 rows of 128 lanes and, per table, 8192 bags of 8 entries, and return to_cat
  joined along the columns with the pooled array: at (bag b, table t, lane d) the sum of the eight rows of table t the
  entries of bag b name, at lane d.  The reference gathers the eight rows and adds them.  The kernel, per table and
  tile of 2048 bags, counts for every row number v how many of a bag's entries equal v and multiplies the count matrix
  into the table.  The two agree where every entry names a row of its table, 0 ≤ entry < 1000, which the precondition
  says: then count(v) · row v summed over v is the sum of the named rows, because a sum of nonnegative numbers
  distributes over a product on the extended reals (so the tables' finiteness is not used).  Outside that range they
  differ — the reference wraps a negative entry and clamps a large one to a row, the kernel counts it for no row.

  The pieces: BagSum (the identity for one bag), IndexRange (the precondition read as the range of every entry),
  Pooled (the pooled array as one function), RefRows (the reference's array is that function), KernelBlock (one
  element of the kernel body's block), KernelArray (the kernel's blocks tile the array; its run read at the result).
  The word-level kernel's frame and the idealized kernel's are the generated ones; the reference's frame is its
  generated run with the result dropped; no operation of the kernel was rewritten by the idealization, so
  `preserves` has nothing to state.
-/
import proofs.«421475_j53309134078326_1_alg».proof.Defs
import proofs.«421475_j53309134078326_1_alg».proof.Proof.Gen.Kernel
import proofs.«421475_j53309134078326_1_alg».proof.Proof.Gen.Kernel.Skeleton
import proofs.«421475_j53309134078326_1_alg».proof.Proof.Gen.Kernel.Launch
import proofs.«421475_j53309134078326_1_alg».proof.Proof.Gen.Kernel.Points
import proofs.«421475_j53309134078326_1_alg».proof.Proof.Gen.Kernel.Frame
import proofs.«421475_j53309134078326_1_alg».proof.Proof.Gen.KernelIdeal
import proofs.«421475_j53309134078326_1_alg».proof.Proof.Gen.KernelIdeal.Skeleton
import proofs.«421475_j53309134078326_1_alg».proof.Proof.Gen.KernelIdeal.Launch
import proofs.«421475_j53309134078326_1_alg».proof.Proof.Gen.KernelIdeal.Points
import proofs.«421475_j53309134078326_1_alg».proof.Proof.Gen.KernelIdeal.Frame
import proofs.«421475_j53309134078326_1_alg».proof.Proof.Gen.ReferenceIdeal
import proofs.«421475_j53309134078326_1_alg».proof.Proof.Gen.ReferenceIdeal.Run
import proofs.«421475_j53309134078326_1_alg».proof.Proof.Gen.ReferenceIdeal.Read
import proofs.«421475_j53309134078326_1_alg».proof.Proof.Gen.Pre_finite_inputs
import proofs.«421475_j53309134078326_1_alg».proof.Proof.IndexRange
import proofs.«421475_j53309134078326_1_alg».proof.Proof.RefRows
import proofs.«421475_j53309134078326_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and keeps its arguments: its generated run, the result's conjunct dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- BOTH PROGRAMS END AT to_cat JOINED WITH THE POOLED ARRAY of the arguments: the kernel by its run read at the
    result (the counted array) and counting-is-gathering under the entries' range; the reference by its generated run,
    its pooled stage being the specification under the same range, read at arguments that agree with the kernel's. -/
theorem algebraic : Cert.algebraic_KernelIdeal_ReferenceIdeal := by
  intro m ρ m' ρ' hpre hagree
  have hx : ∀ (c : Dev Cert.KernelIdeal.nD) j,
      (m ((c.tc : Thread Cert.KernelIdeal.nD Cert.KernelIdeal.τ).loc Cert.KernelIdeal.main_arg0) j).toNat < 1000 :=
    fun c j => Cert.IndexRange.entry_lt _ _ _ _ (hpre c) j
  refine ⟨fun c => Cert.KernelArray.joined
      (m ((c.tc : Thread Cert.KernelIdeal.nD Cert.KernelIdeal.τ).loc Cert.KernelIdeal.main_arg2))
      (Cert.Pooled.pooled (m ((c.tc : Thread Cert.KernelIdeal.nD Cert.KernelIdeal.τ).loc Cert.KernelIdeal.main_arg0))
        (m ((c.tc : Thread Cert.KernelIdeal.nD Cert.KernelIdeal.τ).loc Cert.KernelIdeal.main_arg3))), ?_, ?_⟩
  · refine (θ_run Cert.KernelIdeal.defs _ _).mono (fun _ h c => ⟨(h c).1.trans ?_, (h c).2⟩) (Cert.KernelArray.run m ρ)
    rw [Cert.Pooled.counted_eq_pooled _ _ (hx c)]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq]
    unfold Cert.ReferenceIdeal.Read.val_main_v10
    rw [(hagree c).1, (hagree c).2.2.1, (hagree c).2.2.2, Cert.RefRows.pooled_eq _ _ (hx c)]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
